-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x128x128 : Shape := ⟨4, ![2, 16, 128, 128]⟩
abbrev S128x128x128x128 : Shape := ⟨4, ![128, 128, 128, 128]⟩
abbrev S_ : Shape := ⟨0, ![]⟩

class Facts : Prop where
  bcast_S_S2x16x128x128 : S_.BroadcastsInDim S2x16x128x128 (![] : Fin 0 → Fin S2x16x128x128.rank)
  reducesTo_S2x16x128x128_S_d0_1_2_3 : S2x16x128x128.ReducesTo [0, 1, 2, 3] S_
  h_S_ : 0 < S_.numel
  bcast_S_S128x128x128x128 : S_.BroadcastsInDim S128x128x128x128 (![] : Fin 0 → Fin S128x128x128x128.rank)
  reducesTo_S128x128x128x128_S_d0_1_2_3 : S128x128x128x128.ReducesTo [0, 1, 2, 3] S_

variable [Facts]

def fn {F : FTy → Type} [FloatOps F] (main_arg0 : FVec F S2x16x128x128 .f32) (main_arg1 : FVec F S128x128x128x128 .f32) : IVec S_ 1 :=
  let main_v0 : FVec F S2x16x128x128 .f32 := Host.absf main_arg0
  let main_cst : FVec F S_ .f32 := constant S_ .f32 0x7F800000#32
  let main_v1 : FVec F S2x16x128x128 .f32 := broadcastInDim S2x16x128x128 ![] bcast_S_S2x16x128x128 main_cst
  let main_v2 : IVec S2x16x128x128 1 := cmpf .olt main_v0 main_v1
  let main_c : IVec S_ 1 := constantI S_ 1 1#1
  let main_v3 : IVec S_ 1 := (fun x v => Host.reduce IntOp.andi x v reducesTo_S2x16x128x128_S_d0_1_2_3 h_S_) main_v2 main_c
  let main_v4 : FVec F S128x128x128x128 .f32 := Host.absf main_arg1
  let main_cst_0 : FVec F S_ .f32 := constant S_ .f32 0x7F800000#32
  let main_v5 : FVec F S128x128x128x128 .f32 := broadcastInDim S128x128x128x128 ![] bcast_S_S128x128x128x128 main_cst_0
  let main_v6 : IVec S128x128x128x128 1 := cmpf .olt main_v4 main_v5
  let main_c_1 : IVec S_ 1 := constantI S_ 1 1#1
  let main_v7 : IVec S_ 1 := (fun x v => Host.reduce IntOp.andi x v reducesTo_S128x128x128x128_S_d0_1_2_3 h_S_) main_v6 main_c_1
  let main_v8 : IVec S_ 1 := andi main_v3 main_v7
  main_v8
-- ==== Kernel.lean ====
abbrev S2x16x128x128 : Shape := ⟨4, ![2, 16, 128, 128]⟩
abbrev S128x128x128x128 : Shape := ⟨4, ![128, 128, 128, 128]⟩
abbrev S32x16384 : Shape := ⟨2, ![32, 16384]⟩
abbrev S16384x16384 : Shape := ⟨2, ![16384, 16384]⟩
abbrev S32x4096 : Shape := ⟨2, ![32, 4096]⟩
abbrev S4096x512 : Shape := ⟨2, ![4096, 512]⟩
abbrev S32x512 : Shape := ⟨2, ![32, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x16x128x128, .f32⟩
  | .hbm, ⟨1, _⟩ => ⟨S128x128x128x128, .f32⟩
  | .hbm, ⟨2, _⟩ => ⟨S32x16384, .f32⟩
  | .hbm, ⟨3, _⟩ => ⟨S16384x16384, .f32⟩
  | .hbm, ⟨4, _⟩ => ⟨S32x16384, .f32⟩
  | .hbm, ⟨5, _⟩ => ⟨S2x16x128x128, .f32⟩
  | .local _ .vmem, ⟨0, _⟩ => ⟨S32x4096, .f32⟩
  | .local _ .vmem, ⟨1, _⟩ => ⟨S32x4096, .f32⟩
  | .local _ .vmem, ⟨2, _⟩ => ⟨S4096x512, .f32⟩
  | .local _ .vmem, ⟨3, _⟩ => ⟨S4096x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | _, _ => ⟨S2x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2x16x128x128_S32x16384 : S2x16x128x128.ShapeCasts S32x16384
  shapeCasts_S128x128x128x128_S16384x16384 : S128x128x128x128.ShapeCasts S16384x16384
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  shapeCasts_S32x16384_S2x16x128x128 : S32x16384.ShapeCasts S2x16x128x128
  dot_S32x4096_S4096x512_S32x512_1_0_0_1_n_n_wf : DotDims.WF S32x4096 S4096x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x16384.size a
  hwx0_0 : ∀ i : grid0.Coords, EltTy.bits .f32 = 32 ∨ (Rect.block (s := S32x16384) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S16384x16384.size a
  hwx0_1 : ∀ i : grid0.Coords, EltTy.bits .f32 = 32 ∨ (Rect.block (s := S16384x16384) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x16384.size a
  hwx0_2 : ∀ i : grid0.Coords, EltTy.bits .f32 = 32 ∨ (Rect.block (s := S32x16384) S32x512.size (cc0_transform_2 i) (hinb0_2 i)).WholeWords (EltTy.packing .f32)

variable [Facts₀]

def dot_S32x4096_S4096x512_S32x512_1_0_0_1_n_n : DotDims S32x4096 S4096x512 S32x512 where
  lhsContracting := [1]
  rhsContracting := [0]
  lhsNonContracting := [0]
  rhsNonContracting := [1]
  lhsBatch := []
  rhsBatch := []
  wf := dot_S32x4096_S4096x512_S32x512_1_0_0_1_n_n_wf

abbrev win0_0 : Pipeline.Window sig grid0 :=
  Pipeline.Window.ofSpec (Memref.whole main_v0) S32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x16x128x128 : Shape := ⟨4, ![2, 16, 128, 128]⟩
abbrev S128x128x128x128 : Shape := ⟨4, ![128, 128, 128, 128]⟩
abbrev S16384x16384 : Shape := ⟨2, ![16384, 16384]⟩
abbrev S32x16384 : Shape := ⟨2, ![32, 16384]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2x16x128x128, .f32⟩
  | .hbm, ⟨1, _⟩ => ⟨S128x128x128x128, .f32⟩
  | .hbm, ⟨2, _⟩ => ⟨S16384x16384, .f32⟩
  | .hbm, ⟨3, _⟩ => ⟨S32x16384, .f32⟩
  | .hbm, ⟨4, _⟩ => ⟨S_, .f32⟩
  | .hbm, ⟨5, _⟩ => ⟨S32x16384, .f32⟩
  | .hbm, ⟨6, _⟩ => ⟨S32x16384, .f32⟩
  | .hbm, ⟨7, _⟩ => ⟨S32x16384, .f32⟩
  | .hbm, ⟨8, _⟩ => ⟨S_, .f32⟩
  | .hbm, ⟨9, _⟩ => ⟨S32x16384, .f32⟩
  | .hbm, ⟨10, _⟩ => ⟨S32x16384, .f32⟩
  | .hbm, ⟨11, _⟩ => ⟨S2x16x128x128, .f32⟩
  | _, _ => ⟨S2x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  shapeCasts_S128x128x128x128_S16384x16384 : S128x128x128x128.ShapeCasts S16384x16384
  shapeCasts_S2x16x128x128_S32x16384 : S2x16x128x128.ShapeCasts S32x16384
  bcast_S_S32x16384 : S_.BroadcastsInDim S32x16384 (![] : Fin 0 → Fin S32x16384.rank)
  shapeCasts_S32x16384_S2x16x128x128 : S32x16384.ShapeCasts S2x16x128x128
  dot_S32x16384_S16384x16384_S32x16384_1_0_0_1_n_n_wf : DotDims.WF S32x16384 S16384x16384 S32x16384 [1] [0] [0] [1] [] []

variable [Facts₀]

def dot_S32x16384_S16384x16384_S32x16384_1_0_0_1_n_n : DotDims S32x16384 S16384x16384 S32x16384 where
  lhsContracting := [1]
  rhsContracting := [0]
  lhsNonContracting := [0]
  rhsNonContracting := [1]
  lhsBatch := []
  rhsBatch := []
  wf := dot_S32x16384_S16384x16384_S32x16384_1_0_0_1_n_n_wf

class Facts : Prop extends Facts₀ where

variable [Facts]
-- ==== Proof.Votes.lean ====
/-
  The vote count of a Hough-style transform, as a function of its two operands laid out as matrices.

  With X the 32 x 16384 matrix of image rows and W the 16384 x 16384 vote matrix, entry (r, n) of the result is

      ( sum over k < 16384 of  max (X r k) 0 * W k n )  /  128 .

  This module states that function on the extended reals, the same sum cut into the four stretches of 4096 terms in
  which a tiled evaluation meets it, and the one fact about the two scale constants: multiplying by the float 2^-7
  is dividing by the float 128, on every extended real.
-/
import Idealize.ShloMosaic.PureOps.Ideal.Laws
import Idealize.ShloMosaic.Lib.ValueIdx

noncomputable section

open scoped BigOperators

namespace HoughVotes

open Idealize.ShloMosaic Idealize.ShloMosaic.ValueIdx

/-- The image rows as a matrix, and the vote matrix. -/
abbrev Rows : Shape := ⟨2, ![32, 16384]⟩
abbrev Votes : Shape := ⟨2, ![16384, 16384]⟩

/-- Term k of entry (r, n): the rectified pixel k of row r times vote (k, n); zero past the last pixel, so that
    the terms can be summed over ranges of naturals. -/
def term (X : Rows.Idx → EReal) (W : Votes.Idx → EReal) (r : Fin 32) (n : Fin 16384) (k : ℕ) : EReal :=
  if h : k < 16384 then max (X (ix2 r ⟨k, h⟩)) 0 * W (ix2 ⟨k, h⟩ n) else 0

/-- The transform: every entry the sum of its 16384 terms, over 128. -/
def votes (X : Rows.Idx → EReal) (W : Votes.Idx → EReal) : Rows.Idx → EReal := fun i =>
  Ideal.div (∑ k : Fin 16384, max (X (ix2 (i 0) k)) 0 * W (ix2 k (i 1))) ((128 : ℝ) : EReal)

/-- The sum over the pixels is the sum of the terms over the first 16384 naturals. -/
theorem sum_term (X : Rows.Idx → EReal) (W : Votes.Idx → EReal) (r : Fin 32) (n : Fin 16384) :
    ∑ k ∈ Finset.range 16384, term X W r n k = ∑ k : Fin 16384, max (X (ix2 r k)) 0 * W (ix2 k n) := by
  rw [Finset.sum_range]
  refine Finset.sum_congr rfl fun k _ => ?_
  unfold term
  rw [dif_pos k.isLt]

/-- A term inside the range, spelled with its pixel number as an element of Fin 16384. -/
theorem term_of_lt (X : Rows.Idx → EReal) (W : Votes.Idx → EReal) (r : Fin 32) (n : Fin 16384) (k : ℕ) (h : k < 16384) :
    term X W r n k = max (X (ix2 r ⟨k, h⟩)) 0 * W (ix2 ⟨k, h⟩ n) := by
  unfold term
  rw [dif_pos h]

/-- A running sum grows by one stretch of 4096 terms: the terms below 4096 * j, then those of stretch j. -/
theorem sum_stretch (f : ℕ → EReal) (j : ℕ) :
    ∑ k ∈ Finset.range (4096 * j), f k + ∑ a : Fin 4096, f (4096 * j + a.val) = ∑ k ∈ Finset.range (4096 * (j + 1)), f k := by
  rw [show 4096 * (j + 1) = 4096 * j + 4096 by ring, Finset.sum_range_add]
  exact congrArg (∑ k ∈ Finset.range (4096 * j), f k + ·) (Finset.sum_range fun x => f (4096 * j + x)).symm

/-- The float 128.0 is the real 128. -/
theorem f32_128 : Ideal.ofBits .f32 0x43000000#32 = ((128 : ℝ) : EReal) := by
  simp [Ideal.ofBits, Ideal.ieee, -EReal.coe_mul]; norm_num

/-- The float 0.0078125 is the real 1/128: a power of two, so exactly the reciprocal. -/
theorem f32_inv128 : Ideal.ofBits .f32 0x3C000000#32 = ((1 / 128 : ℝ) : EReal) := by
  simp [Ideal.ofBits, Ideal.ieee, -EReal.coe_mul]; norm_num

/-- Scaling by 2^-7 is dividing by 128, at the infinities too. -/
theorem scale_eq_div (s : EReal) :
    s * Ideal.ofBits .f32 0x3C000000#32 = Ideal.div s ((128 : ℝ) : EReal) := by
  rw [f32_inv128, Ideal.div_coe (by norm_num : (128 : ℝ) ≠ 0)]

end HoughVotes

end
-- ==== Proof.Payloads.lean ====
/-
  The three values the kernel body stores, read entry by entry on the extended reals.

  The body keeps a 32 x 512 running block. It stores the zero block into it (first k-step only); it stores the
  running block plus the product of the rectified 32 x 4096 image block with the 4096 x 512 vote block; and at the
  last k-step it stores the running block times the float 2^-7 into the output. On the extended reals a narrowing
  to bf16 is the identity and the matrix unit's product into a zero accumulator is the plain sum of products, so
  entry (r, q) of the second value is the running entry plus the sum over the 4096 pixels of the block of
  max (x r a) 0 * w a q.
-/
import proofs.«144475_j56298431316042_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Payloads

open Cert.KernelIdeal Cert.KernelIdeal.Gen Idealize.ShloMosaic Idealize.ShloMosaic.ValueIdx

/-- The left operand is read at (row of the output entry, contracted pixel); -/
theorem lhs_row (i : S32x512.Idx) (q : dot_S32x4096_S4096x512_S32x512_1_0_0_1_n_n.contr.Idx) :
    (dot_S32x4096_S4096x512_S32x512_1_0_0_1_n_n.lhsIdx i q 0).val = (i 0).val := by
  unfold DotDims.lhsIdx
  rw [dif_neg (show ¬(0 : Fin S32x4096.rank) ∈ dot_S32x4096_S4096x512_S32x512_1_0_0_1_n_n.lhsBatch by decide), dif_pos (show (0 : Fin S32x4096.rank) ∈ dot_S32x4096_S4096x512_S32x512_1_0_0_1_n_n.lhsNonContracting by decide)]
  rfl
theorem lhs_pixel (i : S32x512.Idx) (q : dot_S32x4096_S4096x512_S32x512_1_0_0_1_n_n.contr.Idx) :
    (dot_S32x4096_S4096x512_S32x512_1_0_0_1_n_n.lhsIdx i q 1).val = (q ⟨0, by decide⟩).val :=
  dot_S32x4096_S4096x512_S32x512_1_0_0_1_n_n.lhsIdx_val_of_single rfl i q
/-- the right operand at (contracted pixel, column of the output entry). -/
theorem rhs_pixel (i : S32x512.Idx) (q : dot_S32x4096_S4096x512_S32x512_1_0_0_1_n_n.contr.Idx) :
    (dot_S32x4096_S4096x512_S32x512_1_0_0_1_n_n.rhsIdx i q 0).val = (q ⟨0, by decide⟩).val :=
  dot_S32x4096_S4096x512_S32x512_1_0_0_1_n_n.rhsIdx_val_of_single rfl i q
theorem rhs_col (i : S32x512.Idx) (q : dot_S32x4096_S4096x512_S32x512_1_0_0_1_n_n.contr.Idx) :
    (dot_S32x4096_S4096x512_S32x512_1_0_0_1_n_n.rhsIdx i q 1).val = (i 1).val := by
  unfold DotDims.rhsIdx
  rw [dif_neg (show ¬(1 : Fin S4096x512.rank) ∈ dot_S32x4096_S4096x512_S32x512_1_0_0_1_n_n.rhsBatch by decide), dif_pos (show (1 : Fin S4096x512.rank) ∈ dot_S32x4096_S4096x512_S32x512_1_0_0_1_n_n.rhsNonContracting by decide)]
  rfl

/-- The block product into the zero accumulator, at (r, q): the sum over the block's pixels of the products. -/
theorem blockProduct_apply {φ₁ φ₂ : FTy} (A : FVec Ideal S32x4096 φ₁) (B : FVec Ideal S4096x512 φ₂) (r : Fin 32) (q : Fin 512) :
    matmul dot_S32x4096_S4096x512_S32x512_1_0_0_1_n_n none A B (constant S32x512 .f32 0x00000000#32) (ix2 r q)
      = ∑ a : Fin 4096, A (ix2 r a) * B (ix2 a q) := by
  refine (Ideal.matmul_constant_zero_apply dot_S32x4096_S4096x512_S32x512_1_0_0_1_n_n none A B (ix2 r q)).trans ?_
  rw [← Equiv.sum_comp (contrEquiv1 dot_S32x4096_S4096x512_S32x512_1_0_0_1_n_n 4096 rfl rfl).symm]
  refine Finset.sum_congr rfl fun a _ => ?_
  have ha := contrEquiv1_symm_val dot_S32x4096_S4096x512_S32x512_1_0_0_1_n_n 4096 rfl rfl a
  have el : dot_S32x4096_S4096x512_S32x512_1_0_0_1_n_n.lhsIdx (ix2 r q) ((contrEquiv1 dot_S32x4096_S4096x512_S32x512_1_0_0_1_n_n 4096 rfl rfl).symm a) = ix2 r a := funext fun d => Fin.ext (by
    match d with
    | ⟨0, _⟩ => exact lhs_row _ _
    | ⟨1, _⟩ => exact (lhs_pixel _ _).trans ha)
  have er : dot_S32x4096_S4096x512_S32x512_1_0_0_1_n_n.rhsIdx (ix2 r q) ((contrEquiv1 dot_S32x4096_S4096x512_S32x512_1_0_0_1_n_n 4096 rfl rfl).symm a) = ix2 a q := funext fun d => Fin.ext (by
    match d with
    | ⟨0, _⟩ => exact (rhs_pixel _ _).trans ha
    | ⟨1, _⟩ => exact rhs_col _ _)
  rw [el, er]

/-- The reset value is the zero block. -/
theorem reset_apply (r : Fin 32) (q : Fin 512) : k0_pay1 (F := Ideal) (ix2 r q) = 0 := by
  unfold k0_pay1
  simp only [shapeCast_self]
  show Ideal.ofBits .f32 0x00000000#32 = 0
  exact Ideal.ofBits_zero_f32

/-- One k-step: the running entry plus the block's 4096 terms. -/
theorem step_apply (x : Vec Ideal S32x4096 .f32) (w : Vec Ideal S4096x512 .f32) (acc : Vec Ideal S32x512 .f32) (r : Fin 32) (q : Fin 512) :
    k0_pay2 x w acc (ix2 r q) = acc (ix2 r q) + ∑ a : Fin 4096, max (x (ix2 r a)) 0 * w (ix2 a q) := by
  unfold k0_pay2
  simp only [shapeCast_self]
  rw [addf_apply, blockProduct_apply]
  refine congrArg (acc (ix2 r q) + ·) (Finset.sum_congr rfl fun a _ => ?_)
  show max (x (ix2 r a)) (Ideal.ofBits .f32 0x00000000#32) * w (ix2 a q) = _
  rw [Ideal.ofBits_zero_f32]

/-- The last k-step's output value: the running entry times the float 2^-7. -/
theorem scaled_apply (acc : Vec Ideal S32x512 .f32) (r : Fin 32) (q : Fin 512) :
    k0_pay3 acc (ix2 r q) = acc (ix2 r q) * Ideal.ofBits .f32 0x3C000000#32 := by
  unfold k0_pay3
  rfl

end Cert.KernelIdeal.Payloads

end
-- ==== Proof.Pieces.lean ====
/-
  What one run of the kernel body leaves in the running block and in the output block, in each of the three ways
  the body can go, as the stored values themselves.

  At the first k-step of a column tile the body zeroes the running block, reads the zeros back and stores the first
  step over them. At a middle k-step it stores one more step over what the step before left. At the last k-step it
  does the same and then stores the scaled running block into the output. Each store writes the whole 32 x 512
  block, so reading a block back gives exactly the last value stored into it.
-/
import proofs.«144475_j56298431316042_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Every access of the body starts at the block's origin. -/
theorem hz : (![0, 0] : Fin 2 → Nat) = fun _ => 0 := funext fun a => by fin_cases a <;> rfl

/-- First k-step: the running block ends at one step over the zero block. -/
theorem first_step (c : Dev nD) (i : grid0.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : cond0_0 i) (hc1 : ¬cond0_1 i)
    (x0 : Vec F S32x4096 .f32) (x1 : Vec F S4096x512 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S32x512) hz]
  simp only [View.readAt_eq_ld, harg2.read_unread, harg3.read_unread, harg5.read_unread, View.readCov_unit_zero (S := S32x512) _ hz,
    View.ld_unit_zero (S := S32x4096) hz, View.ld_unit_zero (S := S4096x512) hz, View.ld_unit_zero (S := S32x512) hz]

/-- Middle k-step: one step over what the step before left. -/
theorem middle_step (c : Dev nD) (i : grid0.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond0_0 i) (hc1 : ¬cond0_1 i)
    (x0 : Vec F S32x4096 .f32) (x1 : Vec F S4096x512 .f32) (xs0 : Vec F S32x512 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.readCov_unit_zero (S := S32x512) _ hz,
    View.ld_unit_zero (S := S32x4096) hz, View.ld_unit_zero (S := S4096x512) hz, View.ld_unit_zero (S := S32x512) hz]

/-- Last k-step: the running block likewise, -/
theorem last_step (c : Dev nD) (i : grid0.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond0_0 i) (hc1 : cond0_1 i)
    (x0 : Vec F S32x4096 .f32) (x1 : Vec F S4096x512 .f32) (xs0 : Vec F S32x512 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.readCov_unit_zero (S := S32x512) _ hz,
    View.ld_unit_zero (S := S32x4096) hz, View.ld_unit_zero (S := S4096x512) hz, View.ld_unit_zero (S := S32x512) hz]

/-- and the output block at the scaled running block. -/
theorem last_step_out (c : Dev nD) (i : grid0.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond0_0 i) (hc1 : cond0_1 i)
    (x0 : Vec F S32x4096 .f32) (x1 : Vec F S4096x512 .f32) (xs0 : Vec F S32x512 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.readCov_unit_zero (S := S32x512) _ hz,
    View.ld_unit_zero (S := S32x4096) hz, View.ld_unit_zero (S := S4096x512) hz, View.ld_unit_zero (S := S32x512) hz]

end Cert.KernelIdeal.Pieces

end
-- ==== Proof.Blocks.lean ====
/-
  Where the blocks of a grid point lie in the two matrices.

  The grid has 32 column tiles times 4 k-steps, the k-step moving fastest: point t is column tile t / 4 at k-step
  t % 4. There the image window holds columns 4096 * (t % 4) onwards of all 32 rows, the vote window holds rows
  4096 * (t % 4) onwards and columns 512 * (t / 4) onwards, and the output window is columns 512 * (t / 4) onwards
  of all 32 rows.
-/
import proofs.«144475_j56298431316042_1_alg».proof.Proof.Gen.KernelIdeal.Frame
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The block numbers of the three windows at point t, decided once over the 128 points. -/
theorem block_numbers : ∀ t : Fin cfg0.N, win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = 0 ∧ win0_2.index t (1 : Fin 2) = t.val / 4 :=
  (by decide +kernel : ∀ t : Fin grid0.N, _)

/-- The two matrices as the kernel region finds them, and a point's two input blocks, under their literal types. -/
abbrev rowsArr (c : Dev nD) : Vec F S32x16384 .f32 := V m c main_v0
abbrev votesArr (c : Dev nD) : Vec F S16384x16384 .f32 := V m c main_v1
abbrev rowsBlk (c : Dev nD) (t : Fin cfg0.N) : Vec F S32x4096 .f32 := iblk m c 0 t
abbrev votesBlk (c : Dev nD) (t : Fin cfg0.N) : Vec F S4096x512 .f32 := iblk m c 1 t

/-- Entry (r, a) of the image block at point t is entry (r, 4096 * (t % 4) + a) of the image matrix. -/
theorem rowsBlk_apply (c : Dev nD) (t : Fin cfg0.N) (r : Fin 32) (a : Fin 4096) (k : Fin 16384)
    (hk : k.val = 4096 * (t.val % 4) + a.val) :
    rowsBlk m c t (ix2 r a) = rowsArr m c (ix2 r k) := by
  obtain ⟨e0, e1, -⟩ := block_numbers t
  show iblk m c 0 t (ix2 r a) = V m c main_v0 (ix2 r k)
  unfold iblk
  rw [View.read_apply]
  show V m c main_v0 _ = V m c main_v0 _
  congr 1
  funext d; apply Fin.ext
  match d with
  | ⟨0, _⟩ => show win0_0.index t (0 : Fin 2) * 32 + 1 * r.val = r.val; rw [e0]; omega
  | ⟨1, _⟩ => show win0_0.index t (1 : Fin 2) * 4096 + 1 * a.val = k.val; rw [e1, hk]; omega

/-- Entry (a, q) of the vote block at point t is entry (4096 * (t % 4) + a, 512 * (t / 4) + q) of the vote matrix. -/
theorem votesBlk_apply (c : Dev nD) (t : Fin cfg0.N) (a : Fin 4096) (q : Fin 512) (k n : Fin 16384)
    (hk : k.val = 4096 * (t.val % 4) + a.val) (hn : n.val = 512 * (t.val / 4) + q.val) :
    votesBlk m c t (ix2 a q) = votesArr m c (ix2 k n) := by
  obtain ⟨-, -, e2, e3, -⟩ := block_numbers t
  show iblk m c 1 t (ix2 a q) = V m c main_v1 (ix2 k n)
  unfold iblk
  rw [View.read_apply]
  show V m c main_v1 _ = V m c main_v1 _
  congr 1
  funext d; apply Fin.ext
  match d with
  | ⟨0, _⟩ => show win0_1.index t (0 : Fin 2) * 4096 + 1 * a.val = k.val; rw [e2, hk]; omega
  | ⟨1, _⟩ => show win0_1.index t (1 : Fin 2) * 512 + 1 * q.val = n.val; rw [e3, hn]; omega

end Cert.KernelIdeal.Blocks

end
-- ==== Proof.Accumulate.lean ====
/-
  The running block after every grid point, on the extended reals.

  Point t is k-step t % 4 of column tile t / 4. After it, entry (r, q) of the running block is the sum of the first
  4096 * (t % 4 + 1) terms of entry (r, 512 * (t / 4) + q) of the transform: the first k-step starts from the zero
  block, every later one adds its stretch of 4096 terms to what the step before left. Only associativity of the
  sum is used, which holds on the extended reals at the infinities too.
-/
import proofs.«144475_j56298431316042_1_alg».proof.Proof.Votes
import proofs.«144475_j56298431316042_1_alg».proof.Proof.Payloads
import proofs.«144475_j56298431316042_1_alg».proof.Proof.Pieces
import proofs.«144475_j56298431316042_1_alg».proof.Proof.Blocks

set_option maxRecDepth 16384

noncomputable section

open scoped BigOperators

namespace Cert.KernelIdeal.Accumulate

open Cert.KernelIdeal Cert.KernelIdeal.Gen Cert.KernelIdeal.Blocks Cert.KernelIdeal.Payloads Cert.KernelIdeal.Pieces
open Idealize.ShloMosaic Idealize.ShloMosaic.TcCoe Idealize.ShloMosaic.ValueIdx Idealize.SL.Sem

variable (m : (ℓ : Loc nD τ sig) → Buf (Elt Ideal) ℓ)

/-- Term k of entry (r, col) of the transform of the two matrices as the kernel region finds them. -/
abbrev termOf (c : Dev nD) (r : Fin 32) (col : Fin 16384) (k : ℕ) : EReal :=
  HoughVotes.term (rowsArr m c) (votesArr m c) r col k

/-- The products a k-step adds at (r, q) are the terms of its stretch: pixel a of the block is pixel
    4096 * (t % 4) + a of the row, column q of the block is column 512 * (t / 4) + q of the matrix. -/
theorem stretch_terms (c : Dev nD) (t : Fin cfg0.N) (r : Fin 32) (q : Fin 512) (col : Fin 16384)
    (hcol : col.val = 512 * (t.val / 4) + q.val) :
    ∑ a : Fin 4096, max (rowsBlk m c t (ix2 r a)) 0 * votesBlk m c t (ix2 a q)
      = ∑ a : Fin 4096, termOf m c r col (4096 * (t.val % 4) + a.val) := by
  refine Finset.sum_congr rfl fun a _ => ?_
  have ha : 4096 * (t.val % 4) + a.val < 16384 := by have := a.isLt; omega
  rw [show termOf m c r col (4096 * (t.val % 4) + a.val) = _ from HoughVotes.term_of_lt _ _ _ _ _ ha,
    rowsBlk_apply m c t r a ⟨_, ha⟩ rfl, votesBlk_apply m c t a q ⟨_, ha⟩ col rfl hcol]

/-- One k-step over a running block whose entry (r, q) is the sum of the terms below the stretch: the sum of the
    terms up to the stretch's end. -/
theorem step_sum (c : Dev nD) (t : Fin cfg0.N) (acc : Vec Ideal S32x512 .f32) (r : Fin 32) (q : Fin 512) (col : Fin 16384)
    (hcol : col.val = 512 * (t.val / 4) + q.val)
    (hacc : acc (ix2 r q) = ∑ k ∈ Finset.range (4096 * (t.val % 4)), termOf m c r col k) :
    k0_pay2 (rowsBlk m c t) (votesBlk m c t) acc (ix2 r q)
      = ∑ k ∈ Finset.range (4096 * (t.val % 4 + 1)), termOf m c r col k := by
  refine (step_apply (rowsBlk m c t) (votesBlk m c t) acc r q).trans ?_
  rw [hacc, stretch_terms m c t r q col hcol]
  exact HoughVotes.sum_stretch (termOf m c r col) (t.val % 4)

/-- THE RUNNING SUM: after point n the running block's entry (r, q) holds the first 4096 * (n % 4 + 1) terms of
    entry (r, 512 * (n / 4) + q). By induction on the point. -/
theorem running (c : Dev nD) : ∀ (n : ℕ) (h : n < cfg0.N) (r : Fin 32) (q : Fin 512) (col : Fin 16384),
    col.val = 512 * (n / 4) + q.val →
    ((outsAt0 m c n h).2 : Vec Ideal S32x512 .f32) (ix2 r q) = ∑ k ∈ Finset.range (4096 * (n % 4 + 1)), termOf m c r col k
  | 0, h, r, q, col, hcol => by
    have h0 : 0 % 4 = 0 := rfl
    have h1 : ¬(0 % 4 = 3) := by omega
    rw [outsAt0_A m c ⟨0, h⟩ h0 h1]
    dsimp only
    refine (congrFun (first_step (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr h0) (fun hh => h1 ((hcond0_1 ⟨0, h⟩).mp hh)) (rowsBlk m c ⟨0, h⟩) (votesBlk m c ⟨0, h⟩)) (ix2 r q)).trans ?_
    refine step_sum m c ⟨0, h⟩ _ r q col hcol ?_
    rw [reset_apply]
    exact Finset.sum_range_zero _ |>.symm
  | n + 1, h, r, q, col, hcol => by
    have hN : cfg0.N = 128 := N_0
    by_cases h0 : (n + 1) % 4 = 0
    · have h1 : ¬(n + 1) % 4 = 3 := by omega
      rw [outsAt0_A m c ⟨n + 1, h⟩ h0 h1]
      dsimp only
      refine (congrFun (first_step (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) ((hcond0_0 ⟨n + 1, h⟩).mpr h0) (fun hh => h1 ((hcond0_1 ⟨n + 1, h⟩).mp hh)) (rowsBlk m c ⟨n + 1, h⟩) (votesBlk m c ⟨n + 1, h⟩)) (ix2 r q)).trans ?_
      refine step_sum m c ⟨n + 1, h⟩ _ r q col hcol ?_
      rw [reset_apply]
      show (0 : EReal) = ∑ k ∈ Finset.range (4096 * ((n + 1) % 4)), termOf m c r col k
      rw [h0]
      exact Finset.sum_range_zero _ |>.symm
    · have ih := running c n (Nat.lt_of_succ_lt h) r q col (by omega)
      rw [show n % 4 + 1 = (n + 1) % 4 by omega] at ih
      by_cases h1 : (n + 1) % 4 = 3
      · rw [outsAt0_C m c ⟨n + 1, h⟩ h0 h1]
        dsimp only
        refine (congrFun (last_step (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1) (rowsBlk m c ⟨n + 1, h⟩) (votesBlk m c ⟨n + 1, h⟩) (outsAt0 m c n (Nat.lt_of_succ_lt h)).2) (ix2 r q)).trans ?_
        exact step_sum m c ⟨n + 1, h⟩ _ r q col hcol ih
      · rw [outsAt0_B m c ⟨n + 1, h⟩ h0 h1]
        dsimp only
        refine (congrFun (middle_step (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) (fun hh => h1 ((hcond0_1 ⟨n + 1, h⟩).mp hh)) (rowsBlk m c ⟨n + 1, h⟩) (votesBlk m c ⟨n + 1, h⟩) (outsAt0 m c n (Nat.lt_of_succ_lt h)).2) (ix2 r q)).trans ?_
        exact step_sum m c ⟨n + 1, h⟩ _ r q col hcol ih

end Cert.KernelIdeal.Accumulate

end
-- ==== Proof.Result.lean ====
/-
  The kernel's result array, on the extended reals: the transform of the two matrices, reshaped.

  The output window is written back at the last k-step of every column tile, and then holds the scaled running
  block, whose entry (r, q) is all 16384 terms of entry (r, 512 * tile + q) times 2^-7, which is that entry of the
  transform. The 32 column tiles cover the 32 x 16384 array, so after the run the array is the transform of the
  two matrices the region found; those are the reshaped arguments, and the last host operation reshapes the array
  into the result.
-/
import proofs.«144475_j56298431316042_1_alg».proof.Proof.Accumulate
import Idealize.ShloMosaic.Lib.StableHlo.Run

set_option maxRecDepth 16384

noncomputable section

open scoped BigOperators

namespace Cert.KernelIdeal.Result

open Cert.KernelIdeal Cert.KernelIdeal.Gen Cert.KernelIdeal.Blocks Cert.KernelIdeal.Payloads Cert.KernelIdeal.Pieces
open Cert.KernelIdeal.Accumulate
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The transform of the two matrices as the region finds them: what the output array is to hold. -/
abbrev transform (c : Dev nD) : Vec Ideal S32x16384 .f32 := HoughVotes.votes (rowsArr m c) (votesArr m c)

/-- At the last k-step of a column tile the output block's entry (r, q) is entry (r, 512 * tile + q) of the
    transform: the running block has all 16384 terms, and the scale by 2^-7 is the division by 128. -/
theorem tile_entry (c : Dev nD) (t : Fin cfg0.N) (h0 : ¬t.val % 4 = 0) (h3 : t.val % 4 = 3) (r : Fin 32) (q : Fin 512)
    (col : Fin 16384) (hcol : col.val = 512 * (t.val / 4) + q.val) :
    (out0_C_2 c (grid0.coords t) (ms0_0 t) (hs0_0 t) (ms0_1 t) (hs0_1 t) (ms0_2 t) (hs0_2 t) scM0_0 (Memref.isWhole_whole _)
        (fun hh => h0 ((hcond0_0 t).mp hh)) ((hcond0_1 t).mpr h3) (rowsBlk m c t) (votesBlk m c t)
        (outsAt0 m c (t.val - 1) (Nat.lt_of_le_of_lt (Nat.sub_le _ _) t.isLt)).2 : Vec Ideal S32x512 .f32) (ix2 r q)
      = transform m c (ix2 r col) := by
  refine (congrFun (last_step_out (F := Ideal) c (grid0.coords t) (ms0_0 t) (hs0_0 t) (ms0_1 t) (hs0_1 t) (ms0_2 t) (hs0_2 t) scM0_0 (Memref.isWhole_whole _)
    (fun hh => h0 ((hcond0_0 t).mp hh)) ((hcond0_1 t).mpr h3) (rowsBlk m c t) (votesBlk m c t)
    (outsAt0 m c (t.val - 1) (Nat.lt_of_le_of_lt (Nat.sub_le _ _) t.isLt)).2) (ix2 r q)).trans ?_
  refine (scaled_apply _ r q).trans ?_
  have hprev := running m c (t.val - 1) (Nat.lt_of_le_of_lt (Nat.sub_le _ _) t.isLt) r q col (by omega)
  rw [show (t.val - 1) % 4 + 1 = t.val % 4 by omega] at hprev
  rw [step_sum m c t _ r q col hcol hprev, h3]
  show (∑ k ∈ Finset.range 16384, termOf m c r col k) * _ = _
  rw [HoughVotes.sum_term, HoughVotes.scale_eq_div]
  rfl

/-- WHAT A COLUMN TILE'S LAST POINT WRITES BACK is its block of the transform. -/
theorem flushed_eq (c : Dev nD) (t : Fin cfg0.N) (hf : (cfg0.win 2).flush t = true) :
    (dats m 0 c).flushed 2 t = ((cfg0.win 2).blk t).view.read (Elt Ideal) (transform m c) := by
  have h3 : t.val % 4 = 3 := (flush0_2 t).mp hf
  have h0 : ¬t.val % 4 = 0 := by omega
  have hN : t.val < 128 := lt_of_lt_of_eq t.isLt (show cfg0.N = 128 from N_0)
  obtain ⟨-, -, -, -, e4, e5⟩ := block_numbers t
  show (cfg0.win 2).cut (grid0.coords t) ((dats m 0 c).after 2 t) = _
  rw [after0_2, outsAt0_C m c t h0 h3]
  dsimp only
  funext y
  obtain ⟨r, q, rfl⟩ : ∃ (r : Fin 32) (q : Fin 512), y = ix2 r q := ⟨y 0, y 1, eq_ix2 y⟩
  rw [View.read_apply]
  refine (tile_entry m c t h0 h3 r q ⟨512 * (t.val / 4) + q.val, by have := q.isLt; omega⟩ rfl).trans ?_
  show transform m c _ = transform m c _
  congr 1
  funext d; apply Fin.ext
  match d with
  | ⟨0, _⟩ => show r.val = win0_2.index t (0 : Fin 2) * 32 + 1 * r.val; rw [e4]; omega
  | ⟨1, _⟩ => show 512 * (t.val / 4) + q.val = win0_2.index t (1 : Fin 2) * 512 + 1 * q.val; rw [e5]; omega

/-- An entry of the array is in point t's output block iff each coordinate is in the block's range. -/
theorem mem_block (t : Fin cfg0.N) (i : S32x16384.Idx) :
    i ∈ ((cfg0.win 2).blk t).view.set ↔ ∀ a : Fin 2, win0_2.index t a * S32x512.size a ≤ (i a).val ∧ (i a).val < win0_2.index t a * S32x512.size a + S32x512.size a := by
  show i ∈ ((View.whole main_v2).slice (win0_2.rect t)).set ↔ _
  rw [View.set_slice_whole, Rect.mem_set_unit]
  exact Iff.rfl

/-- An entry of column tile x is in the output block of that tile's last point, which is written back. -/
theorem covered_by (i : S32x16384.Idx) (t : Fin cfg0.N) (hv : t.val = 4 * ((i 1).val / 512) + 3) :
    (cfg0.win 2).flush t = true ∧ i ∈ ((cfg0.win 2).blk t).view.set := by
  have hi0 : (i 0).val < 32 := (i 0).isLt
  have hi1 : (i 1).val < 16384 := (i 1).isLt
  obtain ⟨-, -, -, -, e4, e5⟩ := block_numbers t
  refine ⟨(flush0_2 t).mpr (by omega), ?_⟩
  rw [mem_block]
  intro a
  match a with
  | ⟨0, _⟩ => show win0_2.index t (0 : Fin 2) * 32 ≤ (i 0).val ∧ (i 0).val < win0_2.index t (0 : Fin 2) * 32 + 32; rw [e4]; omega
  | ⟨1, _⟩ => show win0_2.index t (1 : Fin 2) * 512 ≤ (i 1).val ∧ (i 1).val < win0_2.index t (1 : Fin 2) * 512 + 512; rw [e5]; omega

/-- Every entry of the array is written back by the last point of its column tile. -/
theorem covered (i : S32x16384.Idx) : ∃ t : Fin cfg0.N, (cfg0.win 2).flush t = true ∧ i ∈ ((cfg0.win 2).blk t).view.set :=
  have hi1 : (i 1).val < 16384 := (i 1).isLt
  ⟨⟨4 * ((i 1).val / 512) + 3, lt_of_lt_of_eq (by omega : 4 * ((i 1).val / 512) + 3 < 128) N_0.symm⟩, covered_by i _ rfl⟩

/-- THE ARRAY after the region: the transform of the two matrices. -/
theorem array_eq (c : Dev nD) : (dats m 0 c).arrAt 2 cfg0.N = transform m c :=
  (dats m 0 c).arrAt_eq_of_cover 2 (transform m c) (flushed_eq m c) covered

/-- The two matrices the region finds are the reshaped arguments. -/
theorem rowsArr_eq (c : Dev nD) :
    rowsArr m c = shapeCast S32x16384 (m ((c : Thread nD τ).loc main_arg0)) shapeCasts_S2x16x128x128_S32x16384 := by
  show StableHlo.after hostOps0 (fun b => m (c, b)) (Proc.devRef .tc main_v0) = _
  after_results
  rfl
theorem votesArr_eq (c : Dev nD) :
    votesArr m c = shapeCast S16384x16384 (m ((c : Thread nD τ).loc main_arg1)) shapeCasts_S128x128x128x128_S16384x16384 := by
  show StableHlo.after hostOps0 (fun b => m (c, b)) (Proc.devRef .tc main_v1) = _
  after_results
  rfl

/-- The result buffer after the host operation that follows the region: the array, reshaped. -/
theorem result_eq (c : Dev nD) :
    Pipeline.afterTail₀ cfgs (dats m) 0 (V0 m) [hostOps1] c main_v3
      = shapeCast S2x16x128x128 (transform m c) shapeCasts_S32x16384_S2x16x128x128 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2) = transform m c :=
    (Pipeline.withArrays_arr spec0 launch0.win.arr_inj c _ _ 2).trans (array_eq m c)
  rw [e]
  rfl

/-- THE KERNEL'S RUN, read: the result buffer at the transform of the reshaped arguments, reshaped back; the
    arguments unchanged. -/
theorem run : θ_run defs (onTc (τ := τ) (main (F := Ideal))) ⟨m, fun _ => 0, ρ⟩ fun r => ∀ c : Dev nD,
      r.2.mem ((c.tc : Thread nD τ).loc main_v3)
        = shapeCast S2x16x128x128 (HoughVotes.votes
            (shapeCast S32x16384 (m ((c.tc : Thread nD τ).loc main_arg0)) shapeCasts_S2x16x128x128_S32x16384)
            (shapeCast S16384x16384 (m ((c.tc : Thread nD τ).loc main_arg1)) shapeCasts_S128x128x128x128_S16384x16384))
            shapeCasts_S32x16384_S2x16x128x128
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans
        ((result_eq m c).trans (by
          show shapeCast _ (HoughVotes.votes (rowsArr m c) (votesArr m c)) _ = _
          rw [rowsArr_eq, votesArr_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.Reference.lean ====
/-
  The reference's result, on the extended reals: the same transform of the reshaped arguments, reshaped.

  The reference reshapes the image to 32 rows and the votes to a square matrix, rectifies the rows, multiplies,
  divides by 128 and reshapes back. Its product at (r, n) is the sum over all 16384 pixels of
  max (x r k) 0 * w k n, so the quotient is the transform entry by entry.
-/
import proofs.«144475_j56298431316042_1_alg».proof.Proof.Gen.ReferenceIdeal.Read
import proofs.«144475_j56298431316042_1_alg».proof.Proof.Votes

set_option maxRecDepth 16384

noncomputable section

open scoped BigOperators

namespace Cert.ReferenceIdeal.Transform

open Cert.ReferenceIdeal Cert.ReferenceIdeal.Gen Cert.ReferenceIdeal.Read
open Idealize.ShloMosaic Idealize.ShloMosaic.ValueIdx

/-- The product's left operand is read at (row, pixel), the right at (pixel, column). -/
theorem left_index (i : S32x16384.Idx) (k : Fin 16384) : lidx_main_v3 i k = ix2 (n0 := 32) (n1 := 16384) (i 0) k :=
  funext fun a => Fin.ext (by match a with | ⟨0, _⟩ => rfl | ⟨1, _⟩ => rfl)
theorem right_index (i : S32x16384.Idx) (k : Fin 16384) : ridx_main_v3 i k = ix2 (n0 := 16384) (n1 := 16384) k (i 1) :=
  funext fun a => Fin.ext (by match a with | ⟨0, _⟩ => rfl | ⟨1, _⟩ => rfl)

/-- The host's quotient of any extended real by the float 128.0 is its division by the real 128. -/
theorem quotient_entry (s : EReal) :
    FloatOps.hostDivf (F := Ideal) (φ := .f32) s (FloatOps.ofBits .f32 0x43000000#32) = Ideal.div s ((128 : ℝ) : EReal) := by
  show Ideal.div s (Ideal.ofBits .f32 0x43000000#32) = _
  rw [HoughVotes.f32_128]

/-- A rectified entry: the host's maximum with the float zero is the maximum with the real zero. -/
theorem rectified_entry (x : EReal) :
    FloatOps.maximumf (F := Ideal) (φ := .f32) x (FloatOps.ofBits .f32 0x00000000#32) = max x 0 := by
  show max x (Ideal.ofBits .f32 0x00000000#32) = _
  rw [Ideal.ofBits_zero_f32]

/-- The quotient stage is the transform of the two reshaped arguments. -/
theorem quotient_eq (x0 : (⟨S2x16x128x128, .f32⟩ : BufTy).Contents (Elt Ideal)) (x1 : (⟨S128x128x128x128, .f32⟩ : BufTy).Contents (Elt Ideal)) :
    val_main_v5 (F := Ideal) x0 x1 = HoughVotes.votes (val_main_v1 (F := Ideal) x0) (val_main_v0 (F := Ideal) x1) := by
  funext i
  rw [val_main_v5_apply, val_main_v3_apply, val_main_v4_apply, val_main_cst_apply]
  refine (quotient_entry _).trans ?_
  unfold HoughVotes.votes
  apply congrArg (fun s => Ideal.div s ((128 : ℝ) : EReal))
  apply Finset.sum_congr rfl
  intro k _
  rw [left_index, right_index, val_main_v2_apply, val_main_call0_v0_apply, val_main_call0_cst_apply, rectified_entry]

/-- The reference's result: the transform of the reshaped arguments, reshaped back. -/
theorem result_eq (x0 : (⟨S2x16x128x128, .f32⟩ : BufTy).Contents (Elt Ideal)) (x1 : (⟨S128x128x128x128, .f32⟩ : BufTy).Contents (Elt Ideal)) :
    val_main_v6 (F := Ideal) x0 x1
      = shapeCast S2x16x128x128 (HoughVotes.votes (shapeCast S32x16384 x0 shapeCasts_S2x16x128x128_S32x16384)
          (shapeCast S16384x16384 x1 shapeCasts_S128x128x128x128_S16384x16384)) shapeCasts_S32x16384_S2x16x128x128 := by
  unfold val_main_v6
  rw [quotient_eq]
  rfl

end Cert.ReferenceIdeal.Transform

end
-- ==== Proof.lean ====
/-
  A tiled Hough-style vote count against its whole-array reference, equal on the extended reals.

  Both programs reshape the image to a 32 x 16384 matrix X and the votes to a 16384 x 16384 matrix W, and both
  reshape a 32 x 16384 result back. In between the reference computes (max X 0 · W) / 128 at once, and the kernel
  computes it by 32 column tiles of width 512, each in 4 k-steps of 4096 pixels accumulated in a running block
  that starts at zero, scaling by the float 2^-7 at the last step. On the extended reals the narrowing to bf16 is
  the identity and the matrix unit's product is the exact sum, so the two differ only in how the sum of 16384
  terms is grouped (associativity, valid at the infinities too) and in the scale, 2^-7 being exactly 1/128. The
  finiteness of the inputs is not used.

  Votes.lean states the transform and the two arithmetic facts; Payloads.lean reads the kernel's three stored values
  entry by entry; Pieces.lean says what each way through the body leaves in the running and output blocks;
  Blocks.lean places a grid point's blocks in the matrices; Accumulate.lean is the running sum after every point;
  Result.lean the kernel's result array; Reference.lean the reference's. Here the two results meet.
-/
import proofs.«144475_j56298431316042_1_alg».proof.Defs
import proofs.«144475_j56298431316042_1_alg».proof.Proof.Gen.Kernel
import proofs.«144475_j56298431316042_1_alg».proof.Proof.Gen.Kernel.Frame
import proofs.«144475_j56298431316042_1_alg».proof.Proof.Gen.KernelIdeal
import proofs.«144475_j56298431316042_1_alg».proof.Proof.Gen.KernelIdeal.Frame
import proofs.«144475_j56298431316042_1_alg».proof.Proof.Gen.ReferenceIdeal
import proofs.«144475_j56298431316042_1_alg».proof.Proof.Gen.ReferenceIdeal.Run
import proofs.«144475_j56298431316042_1_alg».proof.Proof.Gen.ReferenceIdeal.Read
import proofs.«144475_j56298431316042_1_alg».proof.Proof.Gen.Pre_finite_inputs
import proofs.«144475_j56298431316042_1_alg».proof.Proof.Result
import proofs.«144475_j56298431316042_1_alg».proof.Proof.Reference
import Idealize.ShloMosaic.Adequacy
import Idealize.ShloMosaic.Init

noncomputable section

namespace Cert.Proof

open Idealize.ShloMosaic Idealize.SL.Sem

/-- The kernel as printed runs to the end without a fault and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree both programs end with the reshaped transform of the reshaped arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Transform.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
